-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x64 : Shape := ⟨2, ![100000, 64]⟩
abbrev S4000x64 : Shape := ⟨2, ![4000, 64]⟩
abbrev S3300000x64 : Shape := ⟨2, ![3300000, 64]⟩
abbrev S1x64 : Shape := ⟨2, ![1, 64]⟩

abbrev nBuf : Space → Nat
  | .hbm => 87
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x64, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .f32⟩
  | .hbm, ⟨77, _⟩ => ⟨S3300000x1, .f32⟩
  | .hbm, ⟨78, _⟩ => ⟨S3300000x64, .f32⟩
  | .hbm, ⟨79, _⟩ => ⟨S3300000x64, .f32⟩
  | .hbm, ⟨80, _⟩ => ⟨S_, .f32⟩
  | .hbm, ⟨81, _⟩ => ⟨S100000x64, .f32⟩
  | .hbm, ⟨82, _⟩ => ⟨S3300000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x64, .f32⟩
  | .local _ .vmem, ⟨9, _⟩ => ⟨S4000x64, .f32⟩
  | .local _ .vmem, ⟨10, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x64_S16x64_0_0 : ∀ a, (![0, 0] : Fin 2 → Nat) a + S16x64.size a ≤ S16x64.size a
  h_S16x64 : 0 < S16x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x64_S4000x64_1_0_0_1_n_n_wf : DotDims.WF S4000x16 S16x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelGraph.lean ====
/-
  The graph side of the network, as functions of the edge list and of a feature matrix.

  The edge list `ei` is a 2 × 3200000 array of node ids: row 0 the source of each edge, row 1 its target.  Every node
  gets a self-loop: `sources ei` and `targets ei` are those rows followed by 0, 1, …, 99999, so both have
  3300000 entries.  `degree` counts, for every node, the entries of `targets` that name it (a scatter-add of ones into
  zeros).  `invSqrtDeg` is degree^(-1/2) where the degree is positive and 0 elsewhere, the root taken of max(degree, 1).
  `edgeWeight` of edge e is invSqrtDeg[source e] · invSqrtDeg[target e].  An id is read as jnp reads an index: a negative
  id i stands for i + 100000 (`wrapped`).

  One aggregation step over a feature matrix `h` (one row per node): every edge e adds row `source e` of `h`, scaled by
  the edge's weight, into row `target e` of a matrix of zeros.  `aggregate16` is that step on 16 columns; `aggregate64`
  is the step on 64 columns followed by the bias `b` added to every row.

  Both programs of this certificate apply exactly these operations; what differs between them is only how the feature
  matrix of each step is computed.  So these functions are never opened: the proof shows the two programs hand them
  equal matrices.
-/
import proofs.«165148_j15762529976715_1_alg».proof.Proof.Gen.KernelIdeal

noncomputable section

namespace Cert.KernelIdeal.Graph

open Cert.KernelIdeal Cert.KernelIdeal.Facts₀ Idealize.ShloMosaic

variable {F : FTy → Type} [FloatOps F]

/-- The sources of the edges, then every node once (its self-loop). -/
def sources (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The targets of the edges, then every node once. -/
def targets (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- Node ids as start indices, one per row: a negative id i is i + 100000. -/
def wrapped (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- How many entries of `col` name each node: ones added into zeros at `col`. -/
def degree (col : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 col) (broadcastInDim S3300000 ![] bcast_S_S3300000 (constant S_ .f32 0x3F800000#32))

/-- degree^(-1/2) where the degree is positive, 0 elsewhere; the root is taken of max(degree, 1). -/
def invSqrtDeg (col : (⟨S3300000, .i32⟩ : BufTy).Contents (Elt F)) : (⟨S100000, .f32⟩ : BufTy).Contents (Elt F) :=
  select (cmpf (F := F) .ogt (degree col) (broadcastInDim S100000 ![] bcast_S_S100000 (constant S_ .f32 0x00000000#32))) (Host.rsqrt (maximumf (degree col) (broadcastInDim S100000 ![] bcast_S_S100000 (constant S_ .f32 0x3F800000#32)))) (broadcastInDim S100000 ![] bcast_S_S100000 (id (constant S_ .f32 0x00000000#32)))

/-- The weight of each edge: invSqrtDeg at its source times invSqrtDeg at its target. -/
def edgeWeight (row col : (⟨S3300000, .i32⟩ : BufTy).Contents (Elt F)) : (⟨S3300000, .f32⟩ : BufTy).Contents (Elt F) :=
  mulf (Host.gather gather_S100000_S3300000x1_S3300000_n_0_n_n_0_1_1 (invSqrtDeg col) (wrapped row)) (Host.gather gather_S100000_S3300000x1_S3300000_n_0_n_n_0_1_1 (invSqrtDeg col) (wrapped col))

/-- One aggregation step on 16 columns: row `row e` of `h`, scaled by `w e`, added into row `col e` of zeros, over all e. -/
def aggregate16 (row col : (⟨S3300000, .i32⟩ : BufTy).Contents (Elt F)) (w : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 col) (mulf (Host.gather gather_S100000x16_S3300000x1_S3300000x16_1_0_n_n_0_1_116 h (wrapped row)) (broadcastInDim S3300000x16 ![0, 1] bcast_S3300000x1_S3300000x16_0_1 (broadcastInDim S3300000x1 ![0] bcast_S3300000_S3300000x1_0 w)))

/-- The same step on 64 columns, then the bias `b` added to every row. -/
def aggregate64 (row col : (⟨S3300000, .i32⟩ : BufTy).Contents (Elt F)) (w : (⟨S3300000, .f32⟩ : BufTy).Contents (Elt F))
    (h : (⟨S100000x64, .f32⟩ : BufTy).Contents (Elt F)) (b : (⟨S64, .f32⟩ : BufTy).Contents (Elt F)) : (⟨S100000x64, .f32⟩ : BufTy).Contents (Elt F) :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 col) (mulf (Host.gather gather_S100000x64_S3300000x1_S3300000x64_1_0_n_n_0_1_164 h (wrapped row)) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

end Cert.KernelIdeal.Graph

end
-- ==== Proof.KernelFold.lean ====
/-
  The idealized kernel's program, read back from its end: what each buffer holds at the boundaries between the host
  stretches and the two pallas_calls, as functions of the arguments.

  The program is five stretches of host operations with the two calls between them.  The first three stretches compute,
  from the edge list alone, the two ends of every edge (with self-loops) and the edge weights.  The first call writes the
  layer-1 features into one array; the fourth stretch aggregates them over the edges and lays the bias out as a 1 × 16
  row; the second call writes the layer-2 features; the last stretch aggregates those and adds the output bias.  A call
  writes its output array and nothing else, and a stretch writes only its own results, so a buffer read later holds what
  the stretch that computed it left there.

  Each lemma names one buffer at one boundary.  The two arrays the calls write stay named as the calls leave them
  (`arrAt`): what they hold is the matter of the modules on the two dense layers.
-/
import proofs.«165148_j15762529976715_1_alg».proof.Proof.Gen.KernelIdeal.Frame
import proofs.«165148_j15762529976715_1_alg».proof.Proof.KernelGraph

set_option maxRecDepth 16384

noncomputable section

namespace Cert.KernelIdeal.Fold

open Cert.KernelIdeal Cert.KernelIdeal.Gen Cert.KernelIdeal.Graph
open Idealize.ShloMosaic Idealize.ShloMosaic.TcCoe Idealize.SL.Sem

variable {F : FTy → Type} [FloatOps F]
variable (m : (ℓ : Loc nD τ sig) → Buf (Elt F) ℓ) (ρ : Dev nD → PrngReg)

/-! ## When the first call is entered -/

set_option maxHeartbeats 4000000 in
/-- The sources of the edges, with self-loops. -/
theorem entry_sources (c : Dev nD) : W3 m ρ c (Proc.devRef .tc main_v3) = sources (m ((c.tc : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The targets of the edges, with self-loops. -/
theorem entry_targets (c : Dev nD) : W3 m ρ c (Proc.devRef .tc main_v6) = targets (m ((c.tc : Thread nD τ).loc main_arg1)) := by
  show StableHlo.after hostOps0_2 (StableHlo.after hostOps0_1 (StableHlo.after hostOps0 (W0 m ρ c))) (Proc.devRef .tc main_v6) = _
  after_results_simp <;> rfl

set_option maxHeartbeats 8000000 in
/-- The edge weights. -/
theorem entry_weights (c : Dev nD) : W3 m ρ c (Proc.devRef .tc main_v31) = edgeWeight (sources (m ((c.tc : Thread nD τ).loc main_arg1))) (targets (m ((c.tc : Thread nD τ).loc main_arg1))) := by
  show StableHlo.after hostOps0_2 (StableHlo.after hostOps0_1 (StableHlo.after hostOps0 (W0 m ρ c))) (Proc.devRef .tc main_v31) = _
  after_results_simp <;> rfl

set_option maxHeartbeats 4000000 in
/-- The arguments are as launched. -/
theorem entry_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem entry_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem entry_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
set_option maxHeartbeats 4000000 in
theorem entry_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
set_option maxHeartbeats 4000000 in
theorem entry_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

/-! ## When the second call is entered -/

set_option maxHeartbeats 4000000 in
/-- Its left operand: the layer-1 aggregation of what the first call left in its output array. -/
theorem entry1_aggregate (c : Dev nD) : W5 m ρ c (Proc.devRef .tc main_v45)
    = aggregate16 (sources (m ((c.tc : Thread nD τ).loc main_arg1))) (targets (m ((c.tc : Thread nD τ).loc main_arg1))) (edgeWeight (sources (m ((c.tc : Thread nD τ).loc main_arg1))) (targets (m ((c.tc : Thread nD τ).loc main_arg1)))) ((dat0 (V3 m ρ) c).arrAt 2 cfg0.N) := by
  show StableHlo.after hostOps1 (W4 m ρ c) (Proc.devRef .tc main_v45) = _
  after_results_simp
  have h32 : W4 m ρ c (Proc.devRef .tc main_v32) = (dat0 (V3 m ρ) c).arrAt 2 cfg0.N := W4_arr m ρ c 2
  rw [h32, W4_of_ne m ρ c main_v6 (by decide), W4_of_ne m ρ c main_v3 (by decide), W4_of_ne m ρ c main_v31 (by decide),
    entry_sources, entry_targets, entry_weights]
  rfl

set_option maxHeartbeats 4000000 in
/-- The bias of layer 1 as a 1 × 16 row. -/
theorem entry1_bias (c : Dev nD) : W5 m ρ c (Proc.devRef .tc main_v46)
    = shapeCast S1x16 (m ((c.tc : Thread nD τ).loc main_arg3)) shapeCasts_S16_S1x16 := by
  show StableHlo.after hostOps1 (W4 m ρ c) (Proc.devRef .tc main_v46) = _
  after_results_simp
  rw [W4_of_ne m ρ c main_arg3 (by decide), entry_arg3]
  rfl

set_option maxHeartbeats 4000000 in
/-- The weights of layer 2. -/
theorem entry1_arg4 (c : Dev nD) : W5 m ρ c (Proc.devRef .tc main_arg4) = m ((c.tc : Thread nD τ).loc main_arg4) := by
  show StableHlo.after hostOps1 (W4 m ρ c) (Proc.devRef .tc main_arg4) = _
  after_results_simp
  rw [W4_of_ne m ρ c main_arg4 (by decide), entry_arg4]

set_option maxHeartbeats 4000000 in
theorem entry1_sources (c : Dev nD) : W5 m ρ c (Proc.devRef .tc main_v3) = sources (m ((c.tc : Thread nD τ).loc main_arg1)) := by
  show StableHlo.after hostOps1 (W4 m ρ c) (Proc.devRef .tc main_v3) = _
  after_results_simp
  rw [W4_of_ne m ρ c main_v3 (by decide), entry_sources]
set_option maxHeartbeats 4000000 in
theorem entry1_targets (c : Dev nD) : W5 m ρ c (Proc.devRef .tc main_v6) = targets (m ((c.tc : Thread nD τ).loc main_arg1)) := by
  show StableHlo.after hostOps1 (W4 m ρ c) (Proc.devRef .tc main_v6) = _
  after_results_simp
  rw [W4_of_ne m ρ c main_v6 (by decide), entry_targets]
set_option maxHeartbeats 4000000 in
theorem entry1_weights (c : Dev nD) : W5 m ρ c (Proc.devRef .tc main_v31) = edgeWeight (sources (m ((c.tc : Thread nD τ).loc main_arg1))) (targets (m ((c.tc : Thread nD τ).loc main_arg1))) := by
  show StableHlo.after hostOps1 (W4 m ρ c) (Proc.devRef .tc main_v31) = _
  after_results_simp
  rw [W4_of_ne m ρ c main_v31 (by decide), entry_weights]
set_option maxHeartbeats 4000000 in
theorem entry1_arg5 (c : Dev nD) : W5 m ρ c (Proc.devRef .tc main_arg5) = m ((c.tc : Thread nD τ).loc main_arg5) := by
  show StableHlo.after hostOps1 (W4 m ρ c) (Proc.devRef .tc main_arg5) = _
  after_results_simp
  rw [W4_of_ne m ρ c main_arg5 (by decide), entry_arg5]

/-! ## At the end -/

set_option maxHeartbeats 4000000 in
/-- The result: the layer-2 aggregation of what the second call left in its output array, plus the output bias. -/
theorem result_eq (c : Dev nD) : W7 m ρ c (Proc.devRef .tc main_v63)
    = aggregate64 (sources (m ((c.tc : Thread nD τ).loc main_arg1))) (targets (m ((c.tc : Thread nD τ).loc main_arg1))) (edgeWeight (sources (m ((c.tc : Thread nD τ).loc main_arg1))) (targets (m ((c.tc : Thread nD τ).loc main_arg1)))) ((dat1 (V5 m ρ) c).arrAt 3 cfg1.N) (m ((c.tc : Thread nD τ).loc main_arg5)) := by
  show StableHlo.after hostOps2 (W6 m ρ c) (Proc.devRef .tc main_v63) = _
  after_results_simp
  have h47 : W6 m ρ c (Proc.devRef .tc main_v47) = (dat1 (V5 m ρ) c).arrAt 3 cfg1.N := W6_arr m ρ c 3
  rw [h47, W6_of_ne m ρ c main_v6 (by decide), W6_of_ne m ρ c main_v3 (by decide), W6_of_ne m ρ c main_v31 (by decide),
    W6_of_ne m ρ c main_arg5 (by decide), entry1_sources, entry1_targets, entry1_weights, entry1_arg5]
  rfl

end Cert.KernelIdeal.Fold

end
-- ==== Proof.Dense.lean ====
/-
  The two dense layers of the network as functions of whole arrays over the extended reals, entry by entry.

  `xw x w` is the product of a 100000 × 512 array with a 512 × 16 array: its entry (r, j) is the sum over k < 512 of
  x[r, k] · w[k, j].  `reluw a b w` takes a 100000 × 16 array `a`, a 1 × 16 row `b` and a 16 × 64 array `w`: it adds
  `b` to every row of `a`, replaces every negative entry by 0, and multiplies by `w`: its entry (r, j) is the sum over
  k < 16 of max(a[r, k] + b[0, k], 0) · w[k, j].

  Row r of either result reads row r of the left operand and nothing else of it.  So a tile of consecutive rows of the
  result is the same function of the same tile of rows of the left operand, whatever the tile's height: computing the
  rows 4000 at a time gives the array that one product over all 100000 rows gives.  No sum is regrouped and no factor is
  moved across a sum, so nothing here asks the entries to be finite.
-/
import Idealize.ShloMosaic.PureOps.Ideal.Laws
import Idealize.ShloMosaic.Lib.ValueIdx

noncomputable section

namespace Cert.Dense

open Idealize.ShloMosaic Idealize.ShloMosaic.ValueIdx

/-- Entry (r, j) of x · w: the sum over k of x[r, k] · w[k, j]. -/
def xw (x : (⟨2, ![100000, 512]⟩ : Shape).Idx → EReal) (w : (⟨2, ![512, 16]⟩ : Shape).Idx → EReal) :
    (⟨2, ![100000, 16]⟩ : Shape).Idx → EReal :=
  fun i => ∑ k : Fin 512, x (ix2 ⟨(i 0).val, (i 0).isLt⟩ k) * w (ix2 k ⟨(i 1).val, (i 1).isLt⟩)

/-- Entry (r, j) of max(a + b, 0) · w, the row `b` added to every row of `a`: the sum over k of
    max(a[r, k] + b[0, k], 0) · w[k, j]. -/
def reluw (a : (⟨2, ![100000, 16]⟩ : Shape).Idx → EReal) (b : (⟨2, ![1, 16]⟩ : Shape).Idx → EReal)
    (w : (⟨2, ![16, 64]⟩ : Shape).Idx → EReal) : (⟨2, ![100000, 64]⟩ : Shape).Idx → EReal :=
  fun i => ∑ k : Fin 16, max (a (ix2 ⟨(i 0).val, (i 0).isLt⟩ k) + b (ix2 (0 : Fin 1) k)) 0 * w (ix2 k ⟨(i 1).val, (i 1).isLt⟩)

end Cert.Dense

end
-- ==== Proof.Layer1.lean ====
/-
  What the first pallas_call leaves in its output array: the product of its two input arrays.

  The call walks the 100000 rows of its left operand in 25 tiles of 4000.  At tile t the body loads rows
  4000·t … 4000·t + 3999 of the left array (all 512 columns) and the whole 512 × 16 right array, multiplies them on the
  matrix unit into an accumulator of zeros, and stores the 4000 × 16 product as tile t of the output.  Over the
  extended reals the change of float format before the product is the identity and 0 + s = s, so entry (p, j) of the
  stored tile is the sum over k < 512 of left[4000·t + p, k] · right[k, j]: entry (4000·t + p, j) of `Dense.xw`.
  The 25 tiles cover every row (row r lies in tile r / 4000), so the array ends holding `Dense.xw` everywhere.
-/
import proofs.«165148_j15762529976715_1_alg».proof.Proof.Gen.KernelIdeal.Frame
import proofs.«165148_j15762529976715_1_alg».proof.Proof.Dense
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-! ## The tile product at an entry -/

/-- The left operand's index of the tile product at output (p, ·) and contraction index q: row p, -/
theorem lhs_0 (i : S4000x16.Idx) (q : dot_S4000x512_S512x16_S4000x16_1_0_0_1_n_n.contr.Idx) :
    (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
/-- column q; -/
theorem lhs_1 (i : S4000x16.Idx) (q : dot_S4000x512_S512x16_S4000x16_1_0_0_1_n_n.contr.Idx) :
    (dot_S4000x512_S512x16_S4000x16_1_0_0_1_n_n.lhsIdx i q 1).val = (q ⟨0, by decide⟩).val :=
  dot_S4000x512_S512x16_S4000x16_1_0_0_1_n_n.lhsIdx_val_of_single rfl i q
/-- the right operand's: row q, -/
theorem rhs_0 (i : S4000x16.Idx) (q : dot_S4000x512_S512x16_S4000x16_1_0_0_1_n_n.contr.Idx) :
    (dot_S4000x512_S512x16_S4000x16_1_0_0_1_n_n.rhsIdx i q 0).val = (q ⟨0, by decide⟩).val :=
  dot_S4000x512_S512x16_S4000x16_1_0_0_1_n_n.rhsIdx_val_of_single rfl i q
/-- column j. -/
theorem rhs_1 (i : S4000x16.Idx) (q : dot_S4000x512_S512x16_S4000x16_1_0_0_1_n_n.contr.Idx) :
    (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- Entry (p, j) of what the body stores: the sum over k of left[p, k] · right[k, j] of the two loaded tiles. -/
theorem stored_apply (x0 : Vec Ideal S4000x512 .f32) (x1 : Vec Ideal S512x16 .f32) (p : Fin 4000) (j : Fin 16) :
    k0_pay1 (F := Ideal) x0 x1 (ix2 p j) = ∑ k : Fin 512, x0 (ix2 p k) * x1 (ix2 k j) := by
  unfold k0_pay1
  refine (Ideal.matmul_constant_zero_apply dot_S4000x512_S512x16_S4000x16_1_0_0_1_n_n none _ _ (ix2 p j)).trans ?_
  rw [← Equiv.sum_comp (contrEquiv1 dot_S4000x512_S512x16_S4000x16_1_0_0_1_n_n 512 rfl rfl).symm]
  refine Finset.sum_congr rfl fun k _ => ?_
  have hk := contrEquiv1_symm_val dot_S4000x512_S512x16_S4000x16_1_0_0_1_n_n 512 rfl rfl k
  have el : dot_S4000x512_S512x16_S4000x16_1_0_0_1_n_n.lhsIdx (ix2 p j) ((contrEquiv1 dot_S4000x512_S512x16_S4000x16_1_0_0_1_n_n 512 rfl rfl).symm k) = ix2 p k := funext fun a => Fin.ext (by
    match a with
    | ⟨0, _⟩ => exact lhs_0 _ _
    | ⟨1, _⟩ => exact (lhs_1 _ _).trans hk)
  have er : dot_S4000x512_S512x16_S4000x16_1_0_0_1_n_n.rhsIdx (ix2 p j) ((contrEquiv1 dot_S4000x512_S512x16_S4000x16_1_0_0_1_n_n 512 rfl rfl).symm k) = ix2 k j := funext fun a => Fin.ext (by
    match a with
    | ⟨0, _⟩ => exact (rhs_0 _ _).trans hk
    | ⟨1, _⟩ => exact rhs_1 _ _)
  rw [el, er]
  rfl

/-! ## From tiles to the array -/

variable (V : (c : Dev nD) → (b : Ref sig .tc) → Buf (Elt Ideal) ((c : Thread nD τ).loc b))

theorem origin : (![0, 0] : Fin 2 → Nat) = fun _ => 0 := funext fun a => by fin_cases a <;> rfl

/-- The left array as the call finds it, 100000 × 512, -/
abbrev lhsArr (c : Dev nD) : Vec Ideal S100000x512 .f32 := V c main_arg0
/-- and the right array, 512 × 16. -/
abbrev rhsArr (c : Dev nD) : Vec Ideal S512x16 .f32 := V c main_arg2

/-- The printed index maps over the 25 points: the left operand's tile moves with the output's down the rows, every
    other block index is 0, and the output's row-tile index stays below 25. -/
theorem tile_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row tile is some point's. -/
theorem tile_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is tile `t` of the product of the two arrays as the call finds them. -/
theorem flushed_eq (c : Dev nD) (t : Fin cfg0.N) :
    (dat0 V c).flushed 2 t = ((cfg0.win 2).blk t).view.read (Elt Ideal) (Dense.xw (V c main_arg0) (V c main_arg2)) := by
  show (cfg0.win 2).cut (grid0.coords t) ((dat0 V c).after 2 t) = _
  rw [after0_2]
  unfold out0_2
  rw [View.canon_unit_zero origin]
  simp only [View.ld_unit_zero (S := S4000x512) origin, View.ld_unit_zero (S := S512x16) origin]
  obtain ⟨e0, e1, e2, e3, e4, e5⟩ := tile_indices t
  funext j
  obtain ⟨p, q, rfl⟩ : ∃ (p : Fin 4000) (q : Fin 16), j = ix2 p q := ⟨j 0, j 1, eq_ix2 j⟩
  show k0_pay1 (iblk0 V c 0 t) (iblk0 V c 1 t) (ix2 p q) = Dense.xw (V c main_arg0) (V c main_arg2) (((cfg0.win 2).blk t).view.emb (ix2 p q))
  refine (stored_apply (iblk0 V c 0 t) (iblk0 V c 1 t) p q).trans ?_
  refine Finset.sum_congr rfl fun k _ => ?_
  show lhsArr V c (((cfg0.win 0).blk t).view.emb (ix2 p k)) * rhsArr V c (((cfg0.win 1).blk t).view.emb (ix2 k q))
    = lhsArr V c (ix2 ⟨((((cfg0.win 2).blk t).view.emb (ix2 p q)) 0).val, ((((cfg0.win 2).blk t).view.emb (ix2 p q)) 0).isLt⟩ k)
      * rhsArr V c (ix2 k ⟨((((cfg0.win 2).blk t).view.emb (ix2 p q)) 1).val, ((((cfg0.win 2).blk t).view.emb (ix2 p q)) 1).isLt⟩)
  have h0 : ((cfg0.win 0).blk t).view.emb (ix2 p k)
      = ix2 ⟨((((cfg0.win 2).blk t).view.emb (ix2 p q)) 0).val, ((((cfg0.win 2).blk t).view.emb (ix2 p q)) 0).isLt⟩ k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have h1 : ((cfg0.win 1).blk t).view.emb (ix2 k q)
      = ix2 k ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [h0, h1]
  rfl

/-- A row index lies in point `t`'s tile iff each coordinate is in the tile's range on its axis. -/
theorem mem_tile (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- Every entry of the output is in some point's tile: row r in tile r / 4000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := tile_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The output array after the call: the product of the two input arrays as the call finds them. -/
theorem array_eq (c : Dev nD) : (dat0 V c).arrAt 2 cfg0.N = Dense.xw (V c main_arg0) (V c main_arg2) :=
  (dat0 V c).arrAt_eq_of_cover 2 (Dense.xw (V c main_arg0) (V c main_arg2)) (fun t _ => flushed_eq V c t) (covered)

end Cert.KernelIdeal.Layer1

end
-- ==== Proof.Layer2.lean ====
/-
  What the second pallas_call leaves in its output array: the bias row added to its left array, negative entries
  replaced by 0, the result multiplied by the right array.

  The call walks the 100000 rows of its left operand in 25 tiles of 4000.  At tile t the body loads rows
  4000·t … 4000·t + 3999 of the left array (16 columns), the whole 1 × 16 bias row and the whole 16 × 64 right array.
  It adds the bias row to every loaded row, takes the maximum with 0 entry by entry, and multiplies by the right array on
  the matrix unit into an accumulator of zeros; the 4000 × 64 product is stored as tile t of the output.  Over the
  extended reals the change of float format before the product is the identity and 0 + s = s, so entry (p, j) of the
  stored tile is the sum over k < 16 of max(left[4000·t + p, k] + bias[0, k], 0) · right[k, j]: entry (4000·t + p, j) of
  `Dense.reluw`.  The 25 tiles cover every row, so the array ends holding `Dense.reluw` everywhere.
-/
import proofs.«165148_j15762529976715_1_alg».proof.Proof.Gen.KernelIdeal.Frame
import proofs.«165148_j15762529976715_1_alg».proof.Proof.Dense
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-! ## The tile product at an entry -/

/-- The left operand's index of the tile product at output (p, ·) and contraction index q: row p, -/
theorem lhs_0 (i : S4000x64.Idx) (q : dot_S4000x16_S16x64_S4000x64_1_0_0_1_n_n.contr.Idx) :
    (dot_S4000x16_S16x64_S4000x64_1_0_0_1_n_n.lhsIdx i q 0).val = (i 0).val := by
  unfold DotDims.lhsIdx
  rw [dif_neg (show ¬(0 : Fin S4000x16.rank) ∈ dot_S4000x16_S16x64_S4000x64_1_0_0_1_n_n.lhsBatch by decide), dif_pos (show (0 : Fin S4000x16.rank) ∈ dot_S4000x16_S16x64_S4000x64_1_0_0_1_n_n.lhsNonContracting by decide)]
  rfl
/-- column q; -/
theorem lhs_1 (i : S4000x64.Idx) (q : dot_S4000x16_S16x64_S4000x64_1_0_0_1_n_n.contr.Idx) :
    (dot_S4000x16_S16x64_S4000x64_1_0_0_1_n_n.lhsIdx i q 1).val = (q ⟨0, by decide⟩).val :=
  dot_S4000x16_S16x64_S4000x64_1_0_0_1_n_n.lhsIdx_val_of_single rfl i q
/-- the right operand's: row q, -/
theorem rhs_0 (i : S4000x64.Idx) (q : dot_S4000x16_S16x64_S4000x64_1_0_0_1_n_n.contr.Idx) :
    (dot_S4000x16_S16x64_S4000x64_1_0_0_1_n_n.rhsIdx i q 0).val = (q ⟨0, by decide⟩).val :=
  dot_S4000x16_S16x64_S4000x64_1_0_0_1_n_n.rhsIdx_val_of_single rfl i q
/-- column j. -/
theorem rhs_1 (i : S4000x64.Idx) (q : dot_S4000x16_S16x64_S4000x64_1_0_0_1_n_n.contr.Idx) :
    (dot_S4000x16_S16x64_S4000x64_1_0_0_1_n_n.rhsIdx i q 1).val = (i 1).val := by
  unfold DotDims.rhsIdx
  rw [dif_neg (show ¬(1 : Fin S16x64.rank) ∈ dot_S4000x16_S16x64_S4000x64_1_0_0_1_n_n.rhsBatch by decide), dif_pos (show (1 : Fin S16x64.rank) ∈ dot_S4000x16_S16x64_S4000x64_1_0_0_1_n_n.rhsNonContracting by decide)]
  rfl

/-- The bias row spread over the 4000 rows of a tile reads, at (p, k), the row's entry k. -/
theorem bias_apply (x1 : Vec Ideal S1x16 .f32) (p : Fin 4000) (k : Fin 16) :
    broadcastTo S4000x16 (shapeCast S1x16 x1 shapeCasts_S1x16_S1x16) broadcasts_S1x16_S4000x16 (ix2 p k) = x1 (ix2 (0 : Fin 1) k) := by
  rw [shapeCast_self]
  exact broadcastTo_apply x1 broadcasts_S1x16_S4000x16 (ix2 p k) (ix2 (0 : Fin 1) k) (fun a => by
    match a with
    | ⟨0, _⟩ => rfl
    | ⟨1, _⟩ => rfl)

/-- Entry (p, j) of what the body stores: the sum over k of max(left[p, k] + bias[0, k], 0) · right[k, j] of the loaded
    tiles. -/
theorem stored_apply (x0 : Vec Ideal S4000x16 .f32) (x1 : Vec Ideal S1x16 .f32) (x2 : Vec Ideal S16x64 .f32) (p : Fin 4000) (j : Fin 64) :
    k1_pay1 (F := Ideal) x0 x1 x2 (ix2 p j) = ∑ k : Fin 16, max (x0 (ix2 p k) + x1 (ix2 (0 : Fin 1) k)) 0 * x2 (ix2 k j) := by
  unfold k1_pay1
  refine (Ideal.matmul_constant_zero_apply dot_S4000x16_S16x64_S4000x64_1_0_0_1_n_n none _ _ (ix2 p j)).trans ?_
  rw [← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p j) ((contrEquiv1 dot_S4000x16_S16x64_S4000x64_1_0_0_1_n_n 16 rfl rfl).symm k) = ix2 p k := funext fun a => Fin.ext (by
    match a with
    | ⟨0, _⟩ => exact lhs_0 _ _
    | ⟨1, _⟩ => exact (lhs_1 _ _).trans hk)
  have er : dot_S4000x16_S16x64_S4000x64_1_0_0_1_n_n.rhsIdx (ix2 p j) ((contrEquiv1 dot_S4000x16_S16x64_S4000x64_1_0_0_1_n_n 16 rfl rfl).symm k) = ix2 k j := funext fun a => Fin.ext (by
    match a with
    | ⟨0, _⟩ => exact (rhs_0 _ _).trans hk
    | ⟨1, _⟩ => exact rhs_1 _ _)
  rw [el, er]
  show max (shapeCast S4000x16 x0 shapeCasts_S4000x16_S4000x16 (ix2 p k)
        + broadcastTo S4000x16 (shapeCast S1x16 x1 shapeCasts_S1x16_S1x16) broadcasts_S1x16_S4000x16 (ix2 p k))
      (Ideal.ofBits .f32 0x00000000#32) * x2 (ix2 k j) = _
  rw [shapeCast_self, bias_apply, Ideal.ofBits_zero_f32]

/-! ## From tiles to the array -/

variable (V : (c : Dev nD) → (b : Ref sig .tc) → Buf (Elt Ideal) ((c : Thread nD τ).loc b))

theorem origin : (![0, 0] : Fin 2 → Nat) = fun _ => 0 := funext fun a => by fin_cases a <;> rfl

/-- The left array as the call finds it, 100000 × 16, -/
abbrev lhsArr (c : Dev nD) : Vec Ideal S100000x16 .f32 := V c main_v45
/-- the bias row, 1 × 16, -/
abbrev biasArr (c : Dev nD) : Vec Ideal S1x16 .f32 := V c main_v46
/-- and the right array, 16 × 64. -/
abbrev rhsArr (c : Dev nD) : Vec Ideal S16x64 .f32 := V c main_arg4

/-- The printed index maps over the 25 points: the left operand's tile moves with the output's down the rows, every
    other block index is 0, and the output's row-tile index stays below 25. -/
theorem tile_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 24 :=
  (by decide +kernel : ∀ t : Fin grid1.N, _)

/-- Every row tile is some point's. -/
theorem tile_onto : ∀ q0 : Fin 25, ∃ t : Fin cfg1.N, win1_3.index t = ![q0.val, 0] :=
  (by decide +kernel : ∀ q0 : Fin 25, ∃ t : Fin grid1.N, win1_3.index t = ![q0.val, 0])

/-- What point `t` writes back is tile `t` of `Dense.reluw` of the three arrays as the call finds them. -/
theorem flushed_eq (c : Dev nD) (t : Fin cfg1.N) :
    (dat1 V c).flushed 3 t = ((cfg1.win 3).blk t).view.read (Elt Ideal) (Dense.reluw (V c main_v45) (V c main_v46) (V c main_arg4)) := by
  show (cfg1.win 3).cut (grid1.coords t) ((dat1 V c).after 3 t) = _
  rw [after1_3]
  unfold out1_3
  rw [View.canon_unit_zero origin]
  simp only [View.ld_unit_zero (S := S4000x16) origin, View.ld_unit_zero (S := S1x16) origin, View.ld_unit_zero (S := S16x64) origin]
  obtain ⟨e0, e1, e2, e3, e4, e5, e6, e7⟩ := tile_indices t
  funext j
  obtain ⟨p, q, rfl⟩ : ∃ (p : Fin 4000) (q : Fin 64), j = ix2 p q := ⟨j 0, j 1, eq_ix2 j⟩
  show k1_pay1 (iblk1 V c 0 t) (iblk1 V c 1 t) (iblk1 V c 2 t) (ix2 p q) = Dense.reluw (V c main_v45) (V c main_v46) (V c main_arg4) (((cfg1.win 3).blk t).view.emb (ix2 p q))
  refine (stored_apply (iblk1 V c 0 t) (iblk1 V c 1 t) (iblk1 V c 2 t) p q).trans ?_
  refine Finset.sum_congr rfl fun k _ => ?_
  show max (lhsArr V c (((cfg1.win 0).blk t).view.emb (ix2 p k)) + biasArr V c (((cfg1.win 1).blk t).view.emb (ix2 (0 : Fin 1) k))) 0
        * rhsArr V c (((cfg1.win 2).blk t).view.emb (ix2 k q))
    = max (lhsArr V c (ix2 ⟨((((cfg1.win 3).blk t).view.emb (ix2 p q)) 0).val, ((((cfg1.win 3).blk t).view.emb (ix2 p q)) 0).isLt⟩ k) + biasArr V c (ix2 (0 : Fin 1) k)) 0
        * rhsArr V c (ix2 k ⟨((((cfg1.win 3).blk t).view.emb (ix2 p q)) 1).val, ((((cfg1.win 3).blk t).view.emb (ix2 p q)) 1).isLt⟩)
  have h0 : ((cfg1.win 0).blk t).view.emb (ix2 p k)
      = ix2 ⟨((((cfg1.win 3).blk t).view.emb (ix2 p q)) 0).val, ((((cfg1.win 3).blk t).view.emb (ix2 p q)) 0).isLt⟩ k := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 16 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have h2 : ((cfg1.win 2).blk t).view.emb (ix2 k q)
      = ix2 k ⟨((((cfg1.win 3).blk t).view.emb (ix2 p q)) 1).val, ((((cfg1.win 3).blk t).view.emb (ix2 p q)) 1).isLt⟩ := by
    funext a; apply Fin.ext
    match a with
    | ⟨0, _⟩ => show win1_2.index t (0 : Fin 2) * 16 + 1 * k.val = k.val; omega
    | ⟨1, _⟩ => show win1_2.index t (1 : Fin 2) * 64 + 1 * q.val = win1_3.index t (1 : Fin 2) * 64 + 1 * q.val; omega
  rw [h0, h1, h2]
  rfl

/-- A row index lies in point `t`'s tile iff each coordinate is in the tile's range on its axis. -/
theorem mem_tile (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v47).slice (win1_3.rect t)).set ↔ _
  rw [View.set_slice_whole, Rect.mem_set_unit]
  exact Iff.rfl

/-- Every entry of the output is in some point's tile: row r in tile r / 4000. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := tile_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_tile]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- The output array after the call: `Dense.reluw` of the three input arrays as the call finds them. -/
theorem array_eq (c : Dev nD) : (dat1 V c).arrAt 3 cfg1.N = Dense.reluw (V c main_v45) (V c main_v46) (V c main_arg4) :=
  (dat1 V c).arrAt_eq_of_cover 3 (Dense.reluw (V c main_v45) (V c main_v46) (V c main_arg4)) (fun t _ => flushed_eq V c t) (covered)

end Cert.KernelIdeal.Layer2

end
-- ==== Proof.KernelValue.lean ====
/-
  The idealized kernel's result as a function of the arguments, over the extended reals:

    aggregate64 (reluw (aggregate16 (xw x W1)) b1 W2) b2

  with the edge ends and weights computed from the edge list.  It puts together the walk through the program's buffers
  (the result is the second aggregation of what the second call wrote; that call's left operand is the first
  aggregation of what the first call wrote) and what each call writes (the two dense layers).  The bias of layer 1
  reaches the second call as a 1 × 16 row laid out from the 16-vector: its entry (0, k) is the vector's entry k.
-/
import proofs.«165148_j15762529976715_1_alg».proof.Proof.KernelFold
import proofs.«165148_j15762529976715_1_alg».proof.Proof.Layer1
import proofs.«165148_j15762529976715_1_alg».proof.Proof.Layer2

noncomputable section

namespace Cert.KernelIdeal.Result

open Cert.KernelIdeal Cert.KernelIdeal.Gen Cert.KernelIdeal.Graph
open Idealize.ShloMosaic Idealize.ShloMosaic.TcCoe Idealize.SL.Sem Idealize.ShloMosaic.ValueIdx

/-- The 1 × 16 row laid out from a 16-vector holds, at (0, k), the vector's entry k. -/
theorem bias_row_apply (b : (⟨S16, .f32⟩ : BufTy).Contents (Elt Ideal)) (k : Fin 16) :
    shapeCast S1x16 b shapeCasts_S16_S1x16 (ix2 (0 : Fin 1) k) = b (ix1 k) :=
  (shapeCast_addUnit_apply ![16] b shapeCasts_S16_S1x16 (ix2 (0 : Fin 1) k)).trans
    (congrArg b (funext fun a => by match a with | ⟨0, _⟩ => rfl))

variable (m : (ℓ : Loc nD τ sig) → Buf (Elt Ideal) ℓ) (ρ : Dev nD → PrngReg)

/-- The result buffer's final contents. -/
theorem value (c : Dev nD) : W7 m ρ c (Proc.devRef .tc main_v63)
    = aggregate64 (sources (m ((c.tc : Thread nD τ).loc main_arg1))) (targets (m ((c.tc : Thread nD τ).loc main_arg1))) (edgeWeight (sources (m ((c.tc : Thread nD τ).loc main_arg1))) (targets (m ((c.tc : Thread nD τ).loc main_arg1))))
        (Dense.reluw (aggregate16 (sources (m ((c.tc : Thread nD τ).loc main_arg1))) (targets (m ((c.tc : Thread nD τ).loc main_arg1))) (edgeWeight (sources (m ((c.tc : Thread nD τ).loc main_arg1))) (targets (m ((c.tc : Thread nD τ).loc main_arg1)))) (Dense.xw (m ((c.tc : Thread nD τ).loc main_arg0)) (m ((c.tc : Thread nD τ).loc main_arg2))))
          (shapeCast S1x16 (m ((c.tc : Thread nD τ).loc main_arg3)) shapeCasts_S16_S1x16) (m ((c.tc : Thread nD τ).loc main_arg4)))
        (m ((c.tc : Thread nD τ).loc main_arg5)) := by
  have ex : V3 m ρ c main_arg0 = (m ((c.tc : Thread nD τ).loc main_arg0)) := Fold.entry_arg0 m ρ c
  have ew : V3 m ρ c main_arg2 = (m ((c.tc : Thread nD τ).loc main_arg2)) := Fold.entry_arg2 m ρ c
  have h1 : (dat0 (V3 m ρ) c).arrAt 2 cfg0.N = Dense.xw (m ((c.tc : Thread nD τ).loc main_arg0)) (m ((c.tc : Thread nD τ).loc main_arg2)) := by
    rw [Layer1.array_eq (V3 m ρ) c, ex, ew]
  have ea : V5 m ρ c main_v45 = aggregate16 (sources (m ((c.tc : Thread nD τ).loc main_arg1))) (targets (m ((c.tc : Thread nD τ).loc main_arg1))) (edgeWeight (sources (m ((c.tc : Thread nD τ).loc main_arg1))) (targets (m ((c.tc : Thread nD τ).loc main_arg1)))) (Dense.xw (m ((c.tc : Thread nD τ).loc main_arg0)) (m ((c.tc : Thread nD τ).loc main_arg2))) := by
    rw [← h1]; exact Fold.entry1_aggregate m ρ c
  have eb : V5 m ρ c main_v46 = shapeCast S1x16 (m ((c.tc : Thread nD τ).loc main_arg3)) shapeCasts_S16_S1x16 := Fold.entry1_bias m ρ c
  have ew2 : V5 m ρ c main_arg4 = (m ((c.tc : Thread nD τ).loc main_arg4)) := Fold.entry1_arg4 m ρ c
  have h2 : (dat1 (V5 m ρ) c).arrAt 3 cfg1.N
      = Dense.reluw (aggregate16 (sources (m ((c.tc : Thread nD τ).loc main_arg1))) (targets (m ((c.tc : Thread nD τ).loc main_arg1))) (edgeWeight (sources (m ((c.tc : Thread nD τ).loc main_arg1))) (targets (m ((c.tc : Thread nD τ).loc main_arg1)))) (Dense.xw (m ((c.tc : Thread nD τ).loc main_arg0)) (m ((c.tc : Thread nD τ).loc main_arg2)))) (shapeCast S1x16 (m ((c.tc : Thread nD τ).loc main_arg3)) shapeCasts_S16_S1x16) (m ((c.tc : Thread nD τ).loc main_arg4)) := by
    rw [Layer2.array_eq (V5 m ρ) c, ea, eb, ew2]
  rw [Fold.result_eq m ρ c, h2]

end Cert.KernelIdeal.Result

end
-- ==== Proof.RefGraph.lean ====
/-
  The graph side of the network, as functions of the edge list and of a feature matrix.

  The edge list `ei` is a 2 × 3200000 array of node ids: row 0 the source of each edge, row 1 its target.  Every node
  gets a self-loop: `sources ei` and `targets ei` are those rows followed by 0, 1, …, 99999, so both have
  3300000 entries.  `degree` counts, for every node, the entries of `targets` that name it (a scatter-add of ones into
  zeros).  `invSqrtDeg` is degree^(-1/2) where the degree is positive and 0 elsewhere, the root taken of max(degree, 1).
  `edgeWeight` of edge e is invSqrtDeg[source e] · invSqrtDeg[target e].  An id is read as jnp reads an index: a negative
  id i stands for i + 100000 (`wrapped`).

  One aggregation step over a feature matrix `h` (one row per node): every edge e adds row `source e` of `h`, scaled by
  the edge's weight, into row `target e` of a matrix of zeros.  `aggregate16` is that step on 16 columns; `aggregate64`
  is the step on 64 columns followed by the bias `b` added to every row.

  Both programs of this certificate apply exactly these operations; what differs between them is only how the feature
  matrix of each step is computed.  So these functions are never opened: the proof shows the two programs hand them
  equal matrices.
-/
import proofs.«165148_j15762529976715_1_alg».proof.Proof.Gen.ReferenceIdeal

noncomputable section

namespace Cert.ReferenceIdeal.Graph

open Cert.ReferenceIdeal Cert.ReferenceIdeal.Facts₀ Idealize.ShloMosaic

variable {F : FTy → Type} [FloatOps F]

/-- The sources of the edges, then every node once (its self-loop). -/
def sources (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The targets of the edges, then every node once. -/
def targets (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- Node ids as start indices, one per row: a negative id i is i + 100000. -/
def wrapped (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- How many entries of `col` name each node: ones added into zeros at `col`. -/
def degree (col : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 col) (broadcastInDim S3300000 ![] bcast_S_S3300000 (constant S_ .f32 0x3F800000#32))

/-- degree^(-1/2) where the degree is positive, 0 elsewhere; the root is taken of max(degree, 1). -/
def invSqrtDeg (col : (⟨S3300000, .i32⟩ : BufTy).Contents (Elt F)) : (⟨S100000, .f32⟩ : BufTy).Contents (Elt F) :=
  select (cmpf (F := F) .ogt (degree col) (broadcastInDim S100000 ![] bcast_S_S100000 (constant S_ .f32 0x00000000#32))) (Host.rsqrt (maximumf (degree col) (broadcastInDim S100000 ![] bcast_S_S100000 (constant S_ .f32 0x3F800000#32)))) (broadcastInDim S100000 ![] bcast_S_S100000 (id (constant S_ .f32 0x00000000#32)))

/-- The weight of each edge: invSqrtDeg at its source times invSqrtDeg at its target. -/
def edgeWeight (row col : (⟨S3300000, .i32⟩ : BufTy).Contents (Elt F)) : (⟨S3300000, .f32⟩ : BufTy).Contents (Elt F) :=
  mulf (Host.gather gather_S100000_S3300000x1_S3300000_n_0_n_n_0_1_1 (invSqrtDeg col) (wrapped row)) (Host.gather gather_S100000_S3300000x1_S3300000_n_0_n_n_0_1_1 (invSqrtDeg col) (wrapped col))

/-- One aggregation step on 16 columns: row `row e` of `h`, scaled by `w e`, added into row `col e` of zeros, over all e. -/
def aggregate16 (row col : (⟨S3300000, .i32⟩ : BufTy).Contents (Elt F)) (w : (⟨S3300000, .f32⟩ : BufTy).Contents (Elt F))
    (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 col) (mulf (Host.gather gather_S100000x16_S3300000x1_S3300000x16_1_0_n_n_0_1_116 h (wrapped row)) (broadcastInDim S3300000x16 ![0, 1] bcast_S3300000x1_S3300000x16_0_1 (broadcastInDim S3300000x1 ![0] bcast_S3300000_S3300000x1_0 w)))

/-- The same step on 64 columns, then the bias `b` added to every row. -/
def aggregate64 (row col : (⟨S3300000, .i32⟩ : BufTy).Contents (Elt F)) (w : (⟨S3300000, .f32⟩ : BufTy).Contents (Elt F))
    (h : (⟨S100000x64, .f32⟩ : BufTy).Contents (Elt F)) (b : (⟨S64, .f32⟩ : BufTy).Contents (Elt F)) : (⟨S100000x64, .f32⟩ : BufTy).Contents (Elt F) :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 col) (mulf (Host.gather gather_S100000x64_S3300000x1_S3300000x64_1_0_n_n_0_1_164 h (wrapped row)) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

end Cert.ReferenceIdeal.Graph

end
-- ==== Proof.RefLayers.lean ====
/-
  The reference program's result, as the same aggregation steps around the two dense layers.

  The reference computes the edge ends and weights, one matrix product x · W1 over all 100000 rows, the first
  aggregation, the bias and the clamp at 0, a second product with W2 over all rows, the second aggregation and the
  output bias.  `result_shape` reads its result term that way.  `product1_eq` and `product2_eq` say that the two
  products are `Dense.xw` and `Dense.reluw`: over the extended reals the host's product is the plain sum over the
  contracted index, and the bias the reference spreads over all rows reads, at (r, k), entry k of the bias vector, as
  does the 1 × 16 row laid out from that vector.
-/
import proofs.«165148_j15762529976715_1_alg».proof.Proof.RefRead
import proofs.«165148_j15762529976715_1_alg».proof.Proof.RefGraph
import proofs.«165148_j15762529976715_1_alg».proof.Proof.Dense
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Graph Cert.ReferenceIdeal.Facts₀
open Idealize.ShloMosaic Idealize.ShloMosaic.TcCoe Idealize.SL.Sem Idealize.ShloMosaic.ValueIdx

/-! ## The result's term -/

section Shape
variable {F : FTy → Type} [FloatOps F]

set_option maxRecDepth 65536 in
set_option maxHeartbeats 4000000 in
/-- The reference's result: aggregate, add the bias and clamp, multiply, aggregate and add the output bias. -/
theorem result_shape (m : (ℓ : Loc nD τ sig) → Buf (Elt F) ℓ) (c : Dev nD) :
    Cert.ReferenceIdeal.ValueP.res_main_v66 m c
      = aggregate64 (sources (m ((c.tc : Thread nD τ).loc main_arg1))) (targets (m ((c.tc : Thread nD τ).loc main_arg1))) (edgeWeight (sources (m ((c.tc : Thread nD τ).loc main_arg1))) (targets (m ((c.tc : Thread nD τ).loc main_arg1))))
          (Host.dotGeneral dot_S100000x16_S16x64_S100000x64_1_0_0_1_n_n none
            (maximumf
              (addf (aggregate16 (sources (m ((c.tc : Thread nD τ).loc main_arg1))) (targets (m ((c.tc : Thread nD τ).loc main_arg1))) (edgeWeight (sources (m ((c.tc : Thread nD τ).loc main_arg1))) (targets (m ((c.tc : Thread nD τ).loc main_arg1))))
                  (Host.dotGeneral dot_S100000x512_S512x16_S100000x16_1_0_0_1_n_n none (m ((c.tc : Thread nD τ).loc main_arg0)) (m ((c.tc : Thread nD τ).loc main_arg2))))
                (broadcastInDim S100000x16 ![0, 1] bcast_S1x16_S100000x16_0_1 (broadcastInDim S1x16 ![1] bcast_S16_S1x16_1 (m ((c.tc : Thread nD τ).loc main_arg3)))))
              (broadcastInDim S100000x16 ![] bcast_S_S100000x16 (constant S_ .f32 0x00000000#32)))
            (m ((c.tc : Thread nD τ).loc main_arg4)))
          (m ((c.tc : Thread nD τ).loc main_arg5)) := by
  unfold Cert.ReferenceIdeal.ValueP.res_main_v66 aggregate64 aggregate16 edgeWeight invSqrtDeg degree wrapped sources targets
  rfl

end Shape

/-! ## The two products -/

/-- The host's product x · W1 is `Dense.xw`. -/
theorem product1_eq (x : FVec Ideal S100000x512 .f32) (w : FVec Ideal S512x16 .f32) :
    Host.dotGeneral (F := Ideal) dot_S100000x512_S512x16_S100000x16_1_0_0_1_n_n none x w = Dense.xw x w := by
  funext i
  refine (Cert.ReferenceIdeal.ReadP.val_main_v32_apply x w i).trans ?_
  refine Finset.sum_congr rfl fun k _ => ?_
  have el : Cert.ReferenceIdeal.ReadP.lidx_main_v32 i k = ix2 ⟨(i 0).val, (i 0).isLt⟩ k :=
    funext fun a => by match a with | ⟨0, _⟩ => rfl | ⟨1, _⟩ => rfl
  have er : Cert.ReferenceIdeal.ReadP.ridx_main_v32 i k = ix2 k ⟨(i 1).val, (i 1).isLt⟩ :=
    funext fun a => by match a with | ⟨0, _⟩ => rfl | ⟨1, _⟩ => rfl
  rw [el, er]
  rfl

/-- The host's second product at an entry: the sum over k of left[r, k] · right[k, j], for any left operand. -/
theorem product2_apply (a : FVec Ideal S100000x16 .f32) (w : FVec Ideal S16x64 .f32) (i : S100000x64.Idx) :
    Host.dotGeneral (F := Ideal) dot_S100000x16_S16x64_S100000x64_1_0_0_1_n_n none a w i
      = ∑ k : Fin 16, a (Cert.ReferenceIdeal.ReadP.lidx_main_v50 i k) * w (Cert.ReferenceIdeal.ReadP.ridx_main_v50 i k) := by
  simp only [Host.dotGeneral]
  rw [Ideal.dotGeneral_apply, ← Equiv.sum_comp (ValueIdx.contrEquiv1 dot_S100000x16_S16x64_S100000x64_1_0_0_1_n_n 16 rfl rfl).symm]
  refine Finset.sum_congr rfl fun k _ => ?_
  have hk := ValueIdx.contrEquiv1_symm_val dot_S100000x16_S16x64_S100000x64_1_0_0_1_n_n 16 rfl rfl k
  have el : dot_S100000x16_S16x64_S100000x64_1_0_0_1_n_n.lhsIdx i ((ValueIdx.contrEquiv1 dot_S100000x16_S16x64_S100000x64_1_0_0_1_n_n 16 rfl rfl).symm k) = Cert.ReferenceIdeal.ReadP.lidx_main_v50 i k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : dot_S100000x16_S16x64_S100000x64_1_0_0_1_n_n.rhsIdx i ((ValueIdx.contrEquiv1 dot_S100000x16_S16x64_S100000x64_1_0_0_1_n_n 16 rfl rfl).symm k) = Cert.ReferenceIdeal.ReadP.ridx_main_v50 i k := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-- The bias vector spread over all rows reads, at (r, k), its entry k. -/
theorem bias_apply (b : FVec Ideal S16 .f32) (r : Fin 100000) (k : Fin 16) :
    broadcastInDim S100000x16 ![0, 1] bcast_S1x16_S100000x16_0_1 (broadcastInDim S1x16 ![1] bcast_S16_S1x16_1 b) (ix2 r k) = b (ix1 k) := by
  refine (broadcastInDim_apply ![0, 1] bcast_S1x16_S100000x16_0_1 _ (ix2 r k) (ix2 (0 : Fin 1) k) (fun a => by
    match a with
    | ⟨0, _⟩ => rfl
    | ⟨1, _⟩ => rfl)).trans ?_
  exact broadcastInDim_apply ![1] bcast_S16_S1x16_1 b (ix2 (0 : Fin 1) k) (ix1 k) (fun a => by
    match a with
    | ⟨0, _⟩ => rfl)

/-- The host's second layer — bias, clamp at 0, product with W2 — is `Dense.reluw`, for any 1 × 16 row that holds the
    bias vector's entries. -/
theorem product2_eq (a : FVec Ideal S100000x16 .f32) (b : FVec Ideal S16 .f32)
    (brow : (⟨2, ![1, 16]⟩ : Shape).Idx → EReal) (hrow : ∀ k : Fin 16, brow (ix2 (0 : Fin 1) k) = b (ix1 k))
    (w : FVec Ideal S16x64 .f32) :
    Host.dotGeneral (F := Ideal) dot_S100000x16_S16x64_S100000x64_1_0_0_1_n_n none
        (maximumf (addf a (broadcastInDim S100000x16 ![0, 1] bcast_S1x16_S100000x16_0_1 (broadcastInDim S1x16 ![1] bcast_S16_S1x16_1 b)))
          (broadcastInDim S100000x16 ![] bcast_S_S100000x16 (constant (F := Ideal) S_ .f32 0x00000000#32))) w
      = Dense.reluw a brow w := by
  funext i
  refine (product2_apply _ w i).trans ?_
  refine Finset.sum_congr rfl fun k _ => ?_
  have el : Cert.ReferenceIdeal.ReadP.lidx_main_v50 i k = ix2 ⟨(i 0).val, (i 0).isLt⟩ k :=
    funext fun a => by match a with | ⟨0, _⟩ => rfl | ⟨1, _⟩ => rfl
  have er : Cert.ReferenceIdeal.ReadP.ridx_main_v50 i k = ix2 k ⟨(i 1).val, (i 1).isLt⟩ :=
    funext fun a => by match a with | ⟨0, _⟩ => rfl | ⟨1, _⟩ => rfl
  rw [el, er]
  show max (a (ix2 ⟨(i 0).val, (i 0).isLt⟩ k)
        + broadcastInDim S100000x16 ![0, 1] bcast_S1x16_S100000x16_0_1 (broadcastInDim S1x16 ![1] bcast_S16_S1x16_1 b) (ix2 ⟨(i 0).val, (i 0).isLt⟩ k))
      (broadcastInDim S100000x16 ![] bcast_S_S100000x16 (constant (F := Ideal) S_ .f32 0x00000000#32) (ix2 ⟨(i 0).val, (i 0).isLt⟩ k))
      * w (ix2 k ⟨(i 1).val, (i 1).isLt⟩) = _
  rw [bias_apply, ← hrow k]
  have hz : broadcastInDim S100000x16 ![] bcast_S_S100000x16 (constant (F := Ideal) S_ .f32 0x00000000#32) (ix2 ⟨(i 0).val, (i 0).isLt⟩ k) = (0 : EReal) := by
    refine (broadcastInDim_apply ![] bcast_S_S100000x16 _ _ ix0 (fun a => a.elim0)).trans ?_
    exact Ideal.ofBits_zero_f32
  rw [hz]

end Cert.ReferenceIdeal.Layers

end
-- ==== Proof.GraphSame.lean ====
/-
  The graph-side functions are written twice, once over each program's own names for the shapes and the dimension
  records of its gathers and scatters.  The two spellings are the same functions: every shape is the same literal and
  every record has the same fields.
-/
import proofs.«165148_j15762529976715_1_alg».proof.Proof.KernelGraph
import proofs.«165148_j15762529976715_1_alg».proof.Proof.RefGraph

noncomputable section

namespace Cert.GraphSame

open Idealize.ShloMosaic

variable {F : FTy → Type} [FloatOps F]

theorem sources_same (ei : (⟨Cert.KernelIdeal.S2x3200000, .i32⟩ : BufTy).Contents (Elt F)) :
    Cert.KernelIdeal.Graph.sources ei = Cert.ReferenceIdeal.Graph.sources ei := rfl

theorem targets_same (ei : (⟨Cert.KernelIdeal.S2x3200000, .i32⟩ : BufTy).Contents (Elt F)) :
    Cert.KernelIdeal.Graph.targets ei = Cert.ReferenceIdeal.Graph.targets ei := rfl

theorem edgeWeight_same (row col : (⟨Cert.KernelIdeal.S3300000, .i32⟩ : BufTy).Contents (Elt F)) :
    Cert.KernelIdeal.Graph.edgeWeight row col = Cert.ReferenceIdeal.Graph.edgeWeight row col := rfl

theorem aggregate16_same (row col : (⟨Cert.KernelIdeal.S3300000, .i32⟩ : BufTy).Contents (Elt F))
    (w : (⟨Cert.KernelIdeal.S3300000, .f32⟩ : BufTy).Contents (Elt F)) (h : (⟨Cert.KernelIdeal.S100000x16, .f32⟩ : BufTy).Contents (Elt F)) :
    Cert.KernelIdeal.Graph.aggregate16 row col w h = Cert.ReferenceIdeal.Graph.aggregate16 row col w h := rfl

theorem aggregate64_same (row col : (⟨Cert.KernelIdeal.S3300000, .i32⟩ : BufTy).Contents (Elt F))
    (w : (⟨Cert.KernelIdeal.S3300000, .f32⟩ : BufTy).Contents (Elt F)) (h : (⟨Cert.KernelIdeal.S100000x64, .f32⟩ : BufTy).Contents (Elt F))
    (b : (⟨Cert.KernelIdeal.S64, .f32⟩ : BufTy).Contents (Elt F)) :
    Cert.KernelIdeal.Graph.aggregate64 row col w h b = Cert.ReferenceIdeal.Graph.aggregate64 row col w h b := rfl

end Cert.GraphSame

end
-- ==== Proof.lean ====
/-
  A two-layer graph convolution: the kernel's program against its jnp reference, over the extended reals.

  Both programs compute, from the edge list, the ends of every edge (each node also gets a self-loop) and the symmetric
  weights deg^(-1/2)[source] · deg^(-1/2)[target]; then

      out = aggregate(relu(aggregate(x · W1) + b1) · W2) + b2,

  where `aggregate` adds every edge's weighted source row into its target row.  They differ only in the two dense
  layers.  The reference multiplies all 100000 rows at once on the host.  The kernel runs each layer as a pallas_call
  that walks the rows in 25 tiles of 4000, casting to a narrower float format before the product on the matrix unit
  (the second call also adds the bias and clamps at 0 in the same body).  Over the extended reals a change of float
  format is the identity, and a row of a matrix product depends on the same row of the left operand only, so the tiled
  products are the whole products entry by entry.  Every sum is taken in the same order on both sides; no sum is
  regrouped and no factor moved across a sum, so the inputs' finiteness is never used.

  The frames: the kernel's two programs by their generated frames; the reference's by its run with the result dropped.
  The kernel's idealization rewrote no operation, so there is nothing to preserve.
-/
import proofs.«165148_j15762529976715_1_alg».proof.Defs
import proofs.«165148_j15762529976715_1_alg».proof.Proof.Gen.Kernel
import proofs.«165148_j15762529976715_1_alg».proof.Proof.Gen.Kernel.Skeleton
import proofs.«165148_j15762529976715_1_alg».proof.Proof.Gen.Kernel.Launch
import proofs.«165148_j15762529976715_1_alg».proof.Proof.Gen.Kernel.Points
import proofs.«165148_j15762529976715_1_alg».proof.Proof.Gen.Kernel.Frame
import proofs.«165148_j15762529976715_1_alg».proof.Proof.Gen.KernelIdeal
import proofs.«165148_j15762529976715_1_alg».proof.Proof.Gen.KernelIdeal.Skeleton
import proofs.«165148_j15762529976715_1_alg».proof.Proof.Gen.KernelIdeal.Launch
import proofs.«165148_j15762529976715_1_alg».proof.Proof.Gen.KernelIdeal.Points
import proofs.«165148_j15762529976715_1_alg».proof.Proof.Gen.KernelIdeal.Frame
import proofs.«165148_j15762529976715_1_alg».proof.Proof.Gen.ReferenceIdeal
import proofs.«165148_j15762529976715_1_alg».proof.Proof.Gen.Pre_finite_inputs
import proofs.«165148_j15762529976715_1_alg».proof.Proof.RefRun
import proofs.«165148_j15762529976715_1_alg».proof.Proof.RefRead
import proofs.«165148_j15762529976715_1_alg».proof.Proof.KernelResult
import proofs.«165148_j15762529976715_1_alg».proof.Proof.KernelValue
import proofs.«165148_j15762529976715_1_alg».proof.Proof.RefLayers
import proofs.«165148_j15762529976715_1_alg».proof.Proof.GraphSame
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result array: the kernel's is
    aggregate(reluw(aggregate(xw x W1), b1, W2)) + b2 by its walk and its two calls; the reference's is the same
    aggregations around its two host products, which are `xw` and `reluw`. -/
theorem algebraic : Cert.algebraic_KernelIdeal_ReferenceIdeal := by
  intro m ρ m' ρ' _ hagree
  refine ⟨fun c => Cert.KernelIdeal.Gen.W7 m ρ c (Proc.devRef .tc Cert.KernelIdeal.main_v63), Cert.KernelIdeal.GenP.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v66 m' c = Cert.KernelIdeal.Gen.W7 m ρ c (Proc.devRef .tc Cert.KernelIdeal.main_v63)
  obtain ⟨h0, h1, h2, h3, h4, h5⟩ := hagree c
  rw [Cert.KernelIdeal.Result.value m ρ c, Cert.ReferenceIdeal.Layers.result_shape m' c, h0, h1, h2, h3, h4, h5,
    Cert.ReferenceIdeal.Layers.product1_eq,
    Cert.ReferenceIdeal.Layers.product2_eq _ (m ((c.tc : Thread Cert.KernelIdeal.nD Cert.KernelIdeal.τ).loc Cert.KernelIdeal.main_arg3))
      (shapeCast Cert.KernelIdeal.S1x16 (m ((c.tc : Thread Cert.KernelIdeal.nD Cert.KernelIdeal.τ).loc Cert.KernelIdeal.main_arg3)) Cert.KernelIdeal.Gen.shapeCasts_S16_S1x16)
      (fun k => Cert.KernelIdeal.Result.bias_row_apply _ k),
    Cert.GraphSame.aggregate64_same, Cert.GraphSame.aggregate16_same, Cert.GraphSame.edgeWeight_same,
    Cert.GraphSame.sources_same, Cert.GraphSame.targets_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
